-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S8x1x512 : Shape := ⟨3, ![8, 1, 512]⟩
abbrev S1x2048x512 : Shape := ⟨3, ![1, 2048, 512]⟩
abbrev S1x1x512 : Shape := ⟨3, ![1, 1, 512]⟩
abbrev S2048x512 : Shape := ⟨2, ![2048, 512]⟩
abbrev S2048x1 : Shape := ⟨2, ![2048, 1]⟩
abbrev S512x512 : Shape := ⟨2, ![512, 512]⟩
abbrev S2048 : Shape := ⟨1, ![2048]⟩
abbrev S512 : Shape := ⟨1, ![512]⟩
abbrev S1x512 : Shape := ⟨2, ![1, 512]⟩
abbrev S8x512 : Shape := ⟨2, ![8, 512]⟩

abbrev nBuf : Space → Nat
  | .hbm => 3
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x1x512, .f32⟩
  | .hbm, ⟨2, _⟩ => ⟨S8x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512, .f32⟩
  | .local _ .vmem, ⟨3, _⟩ => ⟨S1x1x512, .f32⟩
  | .local _ .vmem, ⟨4, _⟩ => ⟨S2048x512, .bf16⟩
  | .local _ .vmem, ⟨5, _⟩ => ⟨S2048x1, .f32⟩
  | .local _ .vmem, ⟨6, _⟩ => ⟨S2048x1, .f32⟩
  | .local _ .vmem, ⟨7, _⟩ => ⟨S2048x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v19 : BitVec 32 := Scalar.addi c0_i32 c4_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v31 : BitVec 32 := Scalar.muli arg7 c512_i32
  v31
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v31 : BitVec 32 := Scalar.muli arg7 c512_i32
  let v32 : BitVec 32 := v31
  let v33 : Index := Scalar.indexCast v32
  let c0_24 : Index := 0#32
  ![v33.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S512x512 : 0 < S512x512.numel
  reduces_S2048x512_S2048 : S2048x512.Reduces [1] S2048
  shapeCasts_S2048_S2048x1 : S2048.ShapeCasts S2048x1
  broadcasts_S2048x1_S2048x512 : S2048x1.Broadcasts S2048x512
  reduces_S2048x512_S512 : S2048x512.Reduces [0] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S8x1x512_S8x512 : S8x1x512.ShapeCasts S8x512
  dot_S2048x512_S512x512_S2048x512_1_1_0_0_n_n_wf : DotDims.WF S2048x512 S512x512 S2048x512 [1] [1] [0] [0] [] []
  dot_S2048x512_S512x512_S2048x512_1_0_0_1_n_n_wf : DotDims.WF S2048x512 S512x512 S2048x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x512.size a
  hwx0_1 : ∀ i : grid0.Coords, EltTy.bits .f32 = 32 ∨ (Rect.block (s := S8x1x512) S1x1x512.size (cc0_transform_1 i) (hinb0_1 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x512 : Shape := ⟨2, ![8, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048x1, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x512, .f32⟩
  | .hbm, ⟨17, _⟩ => ⟨S_, .f32⟩
  | .hbm, ⟨18, _⟩ => ⟨S8x512, .f32⟩
  | .hbm, ⟨19, _⟩ => ⟨S_, .f32⟩
  | .hbm, ⟨20, _⟩ => ⟨S8x512, .f32⟩
  | .hbm, ⟨21, _⟩ => ⟨S8x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x512_S8x512_d1 : S8x2048x512.ReducesTo [1] S8x512
  bcast_S_S8x512 : S_.BroadcastsInDim S8x512 (![] : Fin 0 → Fin S8x512.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Spec.lean ====
/-
  What both programs compute, as mathematics.  One sequence is a real matrix `r : Fin 2048 → Fin 512 → ℝ`
  (2048 rows of 512 features).  Row `q` scores row `k` by their inner product; the scores of a row are turned
  into weights by the softmax; the weighted average of the rows is that query's context; the result is the mean
  of the contexts over the 2048 queries.  Written without the usual shift by the row maximum: on the reals the
  softmax does not depend on the shift, and each program's own shift is removed where that program is read.

  The kernel does not form a row's 2048 scores at once.  It sweeps the keys in four chunks of 512 and keeps,
  per query, a running maximum, a running denominator and a running numerator, rescaling the last two whenever
  the maximum moves (`rowStep`); the quotient numerator / denominator after the four chunks is the context.
-/
import Idealize.ShloMosaic.PureOps.Ideal
import Idealize.ShloMosaic.Lib.ValueIdx

noncomputable section

namespace Cert.AttnMean

open Idealize.ShloMosaic Idealize.ShloMosaic.ValueIdx

/-- The argument's shape and the result's, literally. -/
abbrev SX : Shape := ⟨3, ![8, 2048, 512]⟩
abbrev SO : Shape := ⟨2, ![8, 512]⟩
/-- One sequence as the kernel's body sees it: a block of one batch entry. -/
abbrev SB : Shape := ⟨3, ![1, 2048, 512]⟩

/-- The score of query row `q` against key row `k`: their inner product. -/
def score (r : Fin 2048 → Fin 512 → ℝ) (q k : Fin 2048) : ℝ := ∑ e : Fin 512, r q e * r k e

/-- Query `q`'s context at feature `d`: the rows averaged with weights `exp (score q k)`, normalised. -/
def ctx (r : Fin 2048 → Fin 512 → ℝ) (q : Fin 2048) (d : Fin 512) : ℝ :=
  (∑ k : Fin 2048, Real.exp (score r q k) * r k d) / (∑ k : Fin 2048, Real.exp (score r q k))

/-- The mean of the contexts over the queries. -/
def meanCtx (r : Fin 2048 → Fin 512 → ℝ) (d : Fin 512) : ℝ := (∑ q : Fin 2048, ctx r q d) / 2048

/-- The real sequence an array of extended reals holds at batch entry `b`. -/
def seqOf (x : SX.Idx → EReal) (b : Fin 8) : Fin 2048 → Fin 512 → ℝ := fun q e => (x (ix3 b q e)).toReal

/-- The real sequence a one-entry block holds. -/
def seqOfBlock (x : SB.Idx → EReal) : Fin 2048 → Fin 512 → ℝ := fun q e => (x (ix3 0 q e)).toReal

/-- THE RESULT, as one function of the argument array: entry `(b, d)` is the mean context of sequence `b` at `d`. -/
def G (x : SX.Idx → EReal) : SO.Idx → EReal := fun j => ((meanCtx (seqOf x (j 0)) (j 1) : ℝ) : EReal)

/-- Every entry is a real number. -/
def AllReal {S : Shape} (x : S.Idx → EReal) : Prop := ∀ i, ∃ r : ℝ, x i = (r : EReal)

/-- One chunk of the online softmax on one query row.  `s` are the chunk's 512 scores, `v` its 512 value rows; the
    state is (running maximum, running denominator, running numerator per feature).  The new maximum is the old one
    joined with the chunk's; the old sums are rescaled by `exp (old − new)` and the chunk's terms, taken relative to
    the new maximum, are added. -/
def rowStep (s : Fin 512 → EReal) (v : Fin 512 → Fin 512 → EReal) (st : EReal × EReal × (Fin 512 → EReal)) :
    EReal × EReal × (Fin 512 → EReal) :=
  (max st.1 (Finset.univ.fold max ⊥ s),
   Ideal.exp (st.1 - max st.1 (Finset.univ.fold max ⊥ s)) * st.2.1
     + ∑ j : Fin 512, Ideal.exp (s j - max st.1 (Finset.univ.fold max ⊥ s)),
   fun d => Ideal.exp (st.1 - max st.1 (Finset.univ.fold max ⊥ s)) * st.2.2 d
     + ∑ j : Fin 512, Ideal.exp (s j - max st.1 (Finset.univ.fold max ⊥ s)) * v j d)

/-- The state before the first chunk: maximum `-∞`, both sums zero. -/
def rowInit : EReal × EReal × (Fin 512 → EReal) := (⊥, 0, fun _ => 0)

/-- The four chunks in order, from the initial state. -/
def rowRun (s : Fin 4 → Fin 512 → EReal) (v : Fin 4 → Fin 512 → Fin 512 → EReal) : EReal × EReal × (Fin 512 → EReal) :=
  rowStep (s 3) (v 3) (rowStep (s 2) (v 2) (rowStep (s 1) (v 1) (rowStep (s 0) (v 0) rowInit)))

end Cert.AttnMean

end
-- ==== Proof.Finite.lean ====
/-
  The precondition read: every entry of the argument array is a real number.
-/
import proofs.«430922_j21337397526644_3_alg».proof.Proof.Spec
import proofs.«430922_j21337397526644_3_alg».proof.Defs
import Idealize.ShloMosaic.Lib.ReduceAll

noncomputable section

namespace Cert.AttnMean

open Idealize.ShloMosaic Idealize.SL.Sem

/-- The single-precision pattern `0x7F800000` (sign clear, exponent all ones, fraction zero) denotes `+∞`. -/
private theorem ofBits_inf : Ideal.ofBits .f32 0x7F800000#32 = (⊤ : EReal) := by
  simp [Ideal.ofBits, Ideal.ieee]

/-- An extended real whose absolute value `max a (-a)` lies strictly below `+∞` is a real number:
    at `-∞` and at `+∞` the absolute value is `+∞`, which is not below itself; a real is its own witness. -/
private theorem real_of_abs_lt_inf (a : EReal)
    (h : Ideal.cmp .olt (max a (-a)) (Ideal.ofBits .f32 0x7F800000#32) = 1#1) :
    ∃ r : ℝ, a = (r : EReal) := by
  rw [ofBits_inf] at h
  unfold Ideal.cmp at h
  induction a using EReal.rec with
  | bot => simp at h
  | coe r => exact ⟨r, rfl⟩
  | top => simp at h

/-- `|x| < +∞` at every index says `x` is neither infinity. -/
theorem allReal_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (S := SX) (m ((c.tc : Thread Cert.KernelIdeal.nD Cert.KernelIdeal.τ).loc Cert.KernelIdeal.main_arg0)) := by
  intro i
  -- The precondition on this device, read at the one index of its scalar result.
  have h0 := congrFun (h c) ValueIdx.ix0
  dsimp only [Cert.Pre_finite_inputs.fn] at h0
  -- The scalar shape has exactly one index, so the conjunction over all three axes being 1
  -- means the compared bit is 1 at every index of the array, in particular at `i`.
  haveI : Subsingleton Cert.Pre_finite_inputs.S_.Idx := ⟨fun a b => funext fun d => d.elim0⟩
  have hbit := Host.reduce_andi_all _ _ _ _ _ h0 i
  -- That bit is the comparison `max (x i) (-(x i)) < +∞` on the extended reals.
  exact real_of_abs_lt_inf _ hbit

end Cert.AttnMean

end
-- ==== Proof.RefSide.lean ====
/-
  The reference's result is `G` of its argument, for an argument of real entries.
-/
import proofs.«430922_j21337397526644_3_alg».proof.Proof.Spec
import proofs.«430922_j21337397526644_3_alg».proof.Proof.Gen.ReferenceIdeal.Read
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.AttnMean

/-! ## Finite sums and maxima of real numbers inside the extended reals -/

section Pure

variable {ι : Type} [Fintype ι]

/-- The extended real of a finite sum of reals is the sum of their extended reals. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum, taken from `-∞`, of a nonempty finite family of reals is a real. -/
theorem fold_max_coe_real [Nonempty ι] (f : ι → ℝ) :
    ∃ μ : ℝ, (Finset.univ : Finset ι).fold max (⊥ : EReal) (fun k => (f k : EReal)) = (μ : EReal) := by
  obtain ⟨i0⟩ := ‹Nonempty ι›
  have h1 : (Finset.univ : Finset ι).fold max (⊥ : EReal) (fun k => (f k : EReal)) ≠ ⊤ := by
    apply ne_of_lt
    rw [Finset.fold_max_lt]
    exact ⟨bot_lt_top, fun k _ => EReal.coe_lt_top _⟩
  have h2 : (Finset.univ : Finset ι).fold max (⊥ : EReal) (fun k => (f k : EReal)) ≠ ⊥ := by
    apply ne_of_gt
    have hle : (f i0 : EReal) ≤ (Finset.univ : Finset ι).fold max (⊥ : EReal) (fun k => (f k : EReal)) :=
      (Finset.le_fold_max _).2 (Or.inr ⟨i0, Finset.mem_univ _, le_rfl⟩)
    exact lt_of_lt_of_le (EReal.bot_lt_coe _) hle
  exact ⟨_, (EReal.coe_toReal h1 h2).symm⟩

/-- The softmax does not depend on the shift: weights `exp (s k - μ)` normalised by their sum average `v` to the
    same number as the weights `exp (s k)` normalised by theirs, because `exp (s k - μ) = exp (s k) * exp (-μ)` and
    the common factor `exp (-μ)` cancels. -/
theorem softmax_shift [Nonempty ι] (s v : ι → ℝ) (μ : ℝ) :
    ∑ k, Real.exp (s k - μ) / (∑ k', Real.exp (s k' - μ)) * v k
      = (∑ k, Real.exp (s k) * v k) / (∑ k, Real.exp (s k)) := by
  have hZ : 0 < ∑ k, Real.exp (s k) := Finset.sum_pos (fun k _ => Real.exp_pos _) Finset.univ_nonempty
  have hc : 0 < Real.exp (-μ) := Real.exp_pos _
  have e1 : ∀ k, Real.exp (s k - μ) = Real.exp (s k) * Real.exp (-μ) := fun k => by
    rw [sub_eq_add_neg, Real.exp_add]
  have e2 : ∑ k', Real.exp (s k' - μ) = (∑ k', Real.exp (s k')) * Real.exp (-μ) := by
    rw [Finset.sum_mul]; exact Finset.sum_congr rfl fun k _ => e1 k
  rw [e2, Finset.sum_div]
  refine Finset.sum_congr rfl fun k _ => ?_
  rw [e1 k]
  field_simp

end Pure

/-! ## The constants the reference spells -/

/-- The pattern of `-∞` denotes the bottom of the extended reals. -/
theorem ofBits_neg_inf : Ideal.ofBits .f32 0xFF800000#32 = (⊥ : EReal) := by
  simp [Ideal.ofBits, Ideal.ieee]

/-- The pattern of `2048.0` denotes the real `2048`. -/
theorem ofBits_2048 : Ideal.ofBits .f32 0x45000000#32 = ((2048 : ℝ) : EReal) := by
  simp [Ideal.ofBits, Ideal.ieee, -EReal.coe_mul]; norm_num

/-! ## The reference, one stage at a time, at an index -/

section Stages

open Cert.ReferenceIdeal.Gen Cert.ReferenceIdeal.Read

variable (x : (⟨S8x2048x512, .f32⟩ : BufTy).Contents (Elt Ideal))

/-- An entry of an array of real entries is the real that `seqOf` reads there. -/
theorem x_eq (h : AllReal (S := SX) x) (b : Fin 8) (q : Fin 2048) (e : Fin 512) :
    x (ix3 b q e) = ((seqOf x b q e : ℝ) : EReal) := by
  obtain ⟨r, hr⟩ := h (ix3 b q e)
  unfold seqOf
  rw [hr, EReal.toReal_coe]

/-- The first product's entry `(b, q, k)` is the score of query row `q` against key row `k` of sequence `b`. -/
theorem v0_eq (h : AllReal (S := SX) x) (b : Fin 8) (q k : Fin 2048) :
    val_main_v0 (F := Ideal) x (ix3 b q k) = ((score (seqOf x b) q k : ℝ) : EReal) := by
  rw [val_main_v0_apply]
  unfold score
  rw [coe_sum]
  refine Finset.sum_congr rfl fun e _ => ?_
  have el : lidx_main_v0 (ix3 b q k) e = ix3 b q e :=
    funext fun a => Fin.ext (by match a with | ⟨0, _⟩ => rfl | ⟨1, _⟩ => rfl | ⟨2, _⟩ => rfl)
  have er : ridx_main_v0 (ix3 b q k) e = ix3 b k e :=
    funext fun a => Fin.ext (by match a with | ⟨0, _⟩ => rfl | ⟨1, _⟩ => rfl | ⟨2, _⟩ => rfl)
  rw [el, er, x_eq x h, x_eq x h, ← EReal.coe_mul]

/-- The maximum-reduce over the keys, at `(b, q)`: the maximum from its initial value of the row's 2048 scores. -/
theorem v1_eq (b : Fin 8) (q : Fin 2048) :
    val_main_v1 (F := Ideal) x (ix2 b q)
      = (Finset.univ : Finset (Fin 2048)).fold max (Ideal.ofBits .f32 0xFF800000#32)
          (fun k : Fin 2048 => val_main_v0 (F := Ideal) x (ix3 b q k)) := by
  unfold val_main_v1
  generalize val_main_v0 (F := Ideal) x = y0
  have hR : S8x2048x2048.Reduces [2] S8x2048 := by decide
  have key := Host.reduce_eq_fold_single (FloatOps.maximumf (F := Ideal) (φ := .f32)) y0 (val_main_cst (F := Ideal))
    reducesTo_S8x2048x2048_S8x2048_d2 hR h_S_ (ix2 b q)
  refine key.trans ?_
  exact congrArg (fun f => Finset.fold max (Ideal.ofBits .f32 0xFF800000#32) f (Finset.univ : Finset (Fin 2048)))
    (funext fun k => congrArg y0 (funext fun a => Fin.ext (by
      match a with | ⟨0, _⟩ => rfl | ⟨1, _⟩ => rfl | ⟨2, _⟩ => rfl)))

/-- Joined with `-∞` once more, the row maximum is the maximum from `-∞` of the row's scores. -/
theorem v3_eq (b : Fin 8) (q : Fin 2048) :
    val_main_v3 (F := Ideal) x (ix2 b q)
      = (Finset.univ : Finset (Fin 2048)).fold max (⊥ : EReal) (fun k : Fin 2048 => val_main_v0 (F := Ideal) x (ix3 b q k)) := by
  rw [val_main_v3_apply, val_main_v2_apply, val_main_cst_0_apply, v1_eq, Ideal.maximumf_def, Ideal.ofBits_def,
    ofBits_neg_inf]
  exact max_bot_left _

/-- The row maximum is some real number (which one does not matter: the softmax forgets the shift). -/
theorem v3_real (h : AllReal (S := SX) x) (b : Fin 8) (q : Fin 2048) :
    ∃ μ : ℝ, val_main_v3 (F := Ideal) x (ix2 b q) = (μ : EReal) := by
  rw [v3_eq]
  have e : (fun k : Fin 2048 => val_main_v0 (F := Ideal) x (ix3 b q k))
      = fun k : Fin 2048 => ((score (seqOf x b) q k : ℝ) : EReal) := funext fun k => v0_eq x h b q k
  rw [e]
  haveI : Nonempty (Fin 2048) := ⟨0⟩
  exact fold_max_coe_real _

/-- The shifted score, exponentiated, is the real exponential of the real difference. -/
theorem v7_eq (h : AllReal (S := SX) x) (b : Fin 8) (q k : Fin 2048) (μ : ℝ)
    (hμ : val_main_v3 (F := Ideal) x (ix2 b q) = (μ : EReal)) :
    val_main_v7 (F := Ideal) x (ix3 b q k) = ((Real.exp (score (seqOf x b) q k - μ) : ℝ) : EReal) := by
  have e45 : idx_main_v4 (idx_main_v5 (ix3 b q k)) = ix2 b q :=
    funext fun a => Fin.ext (by match a with | ⟨0, _⟩ => rfl | ⟨1, _⟩ => rfl)
  rw [val_main_v7_apply, val_main_v6_apply, val_main_v5_apply, val_main_v4_apply, e45, hμ, v0_eq x h,
    Ideal.hostUnary_exp_def, Ideal.subf_def, ← EReal.coe_sub, Ideal.exp_coe]

/-- The softmax denominator of row `(b, q)`: the real sum of the shifted exponentials. -/
theorem v8_eq (h : AllReal (S := SX) x) (b : Fin 8) (q : Fin 2048) (μ : ℝ)
    (hμ : val_main_v3 (F := Ideal) x (ix2 b q) = (μ : EReal)) :
    val_main_v8 (F := Ideal) x (ix2 b q) = ((∑ k : Fin 2048, Real.exp (score (seqOf x b) q k - μ) : ℝ) : EReal) := by
  rw [val_main_v8_apply, val_main_cst_1_apply, Ideal.ofBits_def, Ideal.ofBits_zero_f32, zero_add, coe_sum]
  refine Finset.sum_congr rfl fun k _ => ?_
  have e8 : idx_main_v8 (ix2 b q) k = ix3 b q k :=
    funext fun a => Fin.ext (by match a with | ⟨0, _⟩ => rfl | ⟨1, _⟩ => rfl | ⟨2, _⟩ => rfl)
  rw [e8, v7_eq x h b q k μ hμ]

/-- The attention weight of key `k` for query `q`: the shifted exponential over the row's denominator, a real. -/
theorem v11_eq (h : AllReal (S := SX) x) (b : Fin 8) (q k : Fin 2048) (μ : ℝ)
    (hμ : val_main_v3 (F := Ideal) x (ix2 b q) = (μ : EReal)) :
    val_main_v11 (F := Ideal) x (ix3 b q k)
      = ((Real.exp (score (seqOf x b) q k - μ) / (∑ k' : Fin 2048, Real.exp (score (seqOf x b) q k' - μ)) : ℝ) : EReal) := by
  have e910 : idx_main_v9 (idx_main_v10 (ix3 b q k)) = ix2 b q :=
    funext fun a => Fin.ext (by match a with | ⟨0, _⟩ => rfl | ⟨1, _⟩ => rfl)
  haveI : Nonempty (Fin 2048) := ⟨0⟩
  have hZ : (∑ k' : Fin 2048, Real.exp (score (seqOf x b) q k' - μ)) ≠ 0 :=
    ne_of_gt (Finset.sum_pos (fun k' _ => Real.exp_pos _) Finset.univ_nonempty)
  rw [val_main_v11_apply, val_main_v10_apply, val_main_v9_apply, e910, v8_eq x h b q μ hμ, v7_eq x h b q k μ hμ,
    Ideal.hostDivf_def, Ideal.div_coe hZ, ← EReal.coe_mul, mul_one_div]

/-- The context of query `q` at feature `d`: the weighted sum of the value rows is `ctx`, the shift having cancelled. -/
theorem v12_eq (h : AllReal (S := SX) x) (b : Fin 8) (q : Fin 2048) (d : Fin 512) :
    val_main_v12 (F := Ideal) x (ix3 b q d) = ((ctx (seqOf x b) q d : ℝ) : EReal) := by
  obtain ⟨μ, hμ⟩ := v3_real x h b q
  haveI : Nonempty (Fin 2048) := ⟨0⟩
  rw [val_main_v12_apply]
  have term : ∀ k : Fin 2048,
      val_main_v11 (F := Ideal) x (lidx_main_v12 (ix3 b q d) k) * x (ridx_main_v12 (ix3 b q d) k)
        = ((Real.exp (score (seqOf x b) q k - μ) / (∑ k' : Fin 2048, Real.exp (score (seqOf x b) q k' - μ))
            * seqOf x b k d : ℝ) : EReal) := by
    intro k
    have el : lidx_main_v12 (ix3 b q d) k = ix3 b q k :=
      funext fun a => Fin.ext (by match a with | ⟨0, _⟩ => rfl | ⟨1, _⟩ => rfl | ⟨2, _⟩ => rfl)
    have er : ridx_main_v12 (ix3 b q d) k = ix3 b k d :=
      funext fun a => Fin.ext (by match a with | ⟨0, _⟩ => rfl | ⟨1, _⟩ => rfl | ⟨2, _⟩ => rfl)
    rw [el, er, v11_eq x h b q k μ hμ, x_eq x h, ← EReal.coe_mul]
  rw [Finset.sum_congr rfl fun k _ => term k, ← coe_sum,
    softmax_shift (fun k => score (seqOf x b) q k) (fun k => seqOf x b k d) μ]
  rfl

/-- The sum of the contexts over the queries, from zero. -/
theorem v13_eq (h : AllReal (S := SX) x) (b : Fin 8) (d : Fin 512) :
    val_main_v13 (F := Ideal) x (ix2 b d) = ((∑ q : Fin 2048, ctx (seqOf x b) q d : ℝ) : EReal) := by
  rw [val_main_v13_apply, val_main_cst_2_apply, Ideal.ofBits_def, Ideal.ofBits_zero_f32, zero_add, coe_sum]
  refine Finset.sum_congr rfl fun q _ => ?_
  have e13 : idx_main_v13 (ix2 b d) q = ix3 b q d :=
    funext fun a => Fin.ext (by match a with | ⟨0, _⟩ => rfl | ⟨1, _⟩ => rfl | ⟨2, _⟩ => rfl)
  rw [e13, v12_eq x h b q d]

end Stages

theorem ref_is_G (x : (⟨S8x2048x512, .f32⟩ : BufTy).Contents (Elt Ideal)) (h : AllReal (S := SX) x) :
    Cert.ReferenceIdeal.Read.val_main_v15 (F := Ideal) x = G x := by
  funext j
  obtain ⟨b, d, rfl⟩ : ∃ (b : Fin 8) (d : Fin 512), j = ix2 b d := ⟨j 0, j 1, eq_ix2 j⟩
  rw [Cert.ReferenceIdeal.Read.val_main_v15_apply, Cert.ReferenceIdeal.Read.val_main_v14_apply,
    Cert.ReferenceIdeal.Read.val_main_cst_3_apply, v13_eq x h b d, Ideal.hostDivf_def, Ideal.ofBits_def, ofBits_2048,
    Ideal.div_coe (by norm_num), ← EReal.coe_mul, mul_one_div]
  rfl

end Cert.ReferenceIdeal.RefValue

end
-- ==== Proof.BodyRun.lean ====
/-
  What the kernel's body leaves in its output block, as a pure function of the input block.
  The body casts the block to a matrix `Q`, fills the running maximum with `-∞` and the two running sums with
  zeros, sweeps the four key tiles (tile `k` is rows `512 k … 512 k + 511` of `Q`), each trip replacing the three
  running arrays by one step's values, and closes with the quotient, the sum over the queries and the scale.
  Nothing here is arithmetic: it is bookkeeping of what each load reads after which store.
-/
import proofs.«430922_j21337397526644_3_alg».proof.Proof.Gen.KernelIdeal.Frame
import Idealize.ShloMosaic.Lib.Pipeline.Value
import Idealize.ShloMosaic.Lib.Pipeline.FrameBody
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

/-- Key tile `k`: the 512 rows of `Q` from row `512 k` on. -/
def kTile (Q : Vec F S2048x512 .bf16) (k : Fin k0_t1_loop.trips) : Vec F S512x512 .bf16 :=
  View.ld Q (Rect.unit (s := S2048x512) (k0_off1 k) S512x512.size (k0_off1_inb k))

/-- The three running arrays (maximum, denominator, numerator) before trip `k`. -/
def loopSt (Q : Vec F S2048x512 .bf16) : ℕ → Vec F S2048x1 .f32 × Vec F S2048x1 .f32 × Vec F S2048x512 .f32
  | 0 => (k0_pay3, k0_pay4, k0_pay5)
  | k + 1 =>
    if h : k < k0_t1_loop.trips then
      (k0_pay12 Q (kTile Q ⟨k, h⟩) (loopSt Q k).1,
       k0_pay10 Q (kTile Q ⟨k, h⟩) (loopSt Q k).1 (loopSt Q k).2.1,
       k0_pay11 Q (kTile Q ⟨k, h⟩) (loopSt Q k).1 (loopSt Q k).2.2)
    else loopSt Q k

/-- The body's output block from its input block. -/
def bodyVal (x0 : Vec F S1x2048x512 .f32) : Vec F S1x1x512 .f32 :=
  k0_pay1 (k0_pay13 (loopSt (k0_pay2 x0) k0_t1_loop.trips).2.2 (loopSt (k0_pay2 x0) k0_t1_loop.trips).2.1)

/-- The sweep has four trips. -/
theorem trips_eq : k0_t1_loop.trips = 4 := by decide

theorem loopSt_zero (Q : Vec F S2048x512 .bf16) : loopSt Q 0 = (k0_pay3, k0_pay4, k0_pay5) := rfl

/-- Trip `k` replaces the three running arrays by one step's values over key tile `k`. -/
theorem loopSt_succ (Q : Vec F S2048x512 .bf16) (k : Fin k0_t1_loop.trips) :
    loopSt Q (k.val + 1)
      = (k0_pay12 Q (kTile Q k) (loopSt Q k.val).1,
         k0_pay10 Q (kTile Q k) (loopSt Q k.val).1 (loopSt Q k.val).2.1,
         k0_pay11 Q (kTile Q k) (loopSt Q k.val).1 (loopSt Q k.val).2.2) := by
  rw [loopSt]; exact dif_pos k.isLt

/-- Key tile `k` at row `j` is row `512 k + j` of the matrix. -/
theorem kTile_apply (Q : Vec F S2048x512 .bf16) (k : Fin k0_t1_loop.trips) (j e : Fin 512)
    (h : 512 * k.val + j.val < 2048) :
    kTile Q k (ValueIdx.ix2 j e) = Q (ValueIdx.ix2 ⟨512 * k.val + j.val, h⟩ e) := by
  unfold kTile
  show Q ((Rect.unit (s := S2048x512) (k0_off1 k) S512x512.size (k0_off1_inb k)).idx (ValueIdx.ix2 j e)) = _
  refine congrArg Q (funext fun a => Fin.ext ?_)
  have ho := k0_off1_eq k
  match a with
  | ⟨0, _⟩ =>
    show k0_off1 k 0 + 1 * j.val = 512 * k.val + j.val
    rw [ho]; simp
  | ⟨1, _⟩ =>
    show k0_off1 k 1 + 1 * e.val = e.val
    rw [ho]; simp

/-! ## Whole-buffer stores and loads -/

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

/-- After a store of the whole buffer, whatever was stored before, the buffer reads as that store's value. -/
theorem read_writes_whole_cons {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## One trip's stores -/

section Trip
variable (𝒱 : Variants) (c : Dev nD) (bd : Option 𝒱.V) (i : grid0.Coords)
  (arg1 : Memref sig .tc .vmem S1x2048x512 .f32) (harg1 : arg1.IsWhole)
  (arg2 : Memref sig .tc .vmem S1x1x512 .f32) (harg2 : arg2.IsWhole)
  (arg3 : Memref sig .tc .vmem S2048x512 .bf16) (harg3 : arg3.IsWhole)
  (arg4 : Memref sig .tc .vmem S2048x1 .f32) (harg4 : arg4.IsWhole)
  (arg5 : Memref sig .tc .vmem S2048x1 .f32) (harg5 : arg5.IsWhole)
  (arg6 : Memref sig .tc .vmem S2048x512 .f32) (harg6 : arg6.IsWhole)
  (Q : Vec F S2048x512 .bf16) (X3 : BufTy.Contents (Elt F) arg3.view.ty)
  (G4 : BufTy.Contents (Elt F) arg4.view.ty) (G5 : BufTy.Contents (Elt F) arg5.view.ty)
  (G6 : BufTy.Contents (Elt F) arg6.view.ty)

/-- One trip stores, into each running array whole, one step's value of what it finds there. -/
theorem tripL_eq (k : Fin k0_t1_loop.trips) (f4 : BufTy.Contents (Elt F) arg4.view.ty)
    (f5 : BufTy.Contents (Elt F) arg5.view.ty) (f6 : BufTy.Contents (Elt F) arg6.view.ty) :
    tripL_k0_t1 (F := F) 𝒱 c bd i arg1 harg1 arg2 harg2 arg3 harg3 arg4 harg4 arg5 harg5 arg6 harg6 Q X3 k f4 f5 f6
      = ([⟨Rect.unit (s := S2048x1) ![0, 0] S2048x1.size inb_S2048x1_S2048x1_0_0,
            k0_pay12 Q (View.readAt (Elt F) arg3.view (Rect.unit (s := S2048x512) (k0_off1 k) S512x512.size (k0_off1_inb k)).toLoadRect X3)
              (View.readAt (Elt F) arg4.view (Rect.unit (s := S2048x1) ![0, 0] S2048x1.size inb_S2048x1_S2048x1_0_0).toLoadRect f4)⟩],
         [⟨Rect.unit (s := S2048x1) ![0, 0] S2048x1.size inb_S2048x1_S2048x1_0_0,
            k0_pay10 Q (View.readAt (Elt F) arg3.view (Rect.unit (s := S2048x512) (k0_off1 k) S512x512.size (k0_off1_inb k)).toLoadRect X3)
              (View.readAt (Elt F) arg4.view (Rect.unit (s := S2048x1) ![0, 0] S2048x1.size inb_S2048x1_S2048x1_0_0).toLoadRect f4)
              (View.readAt (Elt F) arg5.view (Rect.unit (s := S2048x1) ![0, 0] S2048x1.size inb_S2048x1_S2048x1_0_0).toLoadRect f5)⟩],
         [⟨Rect.unit (s := S2048x512) ![0, 0] S2048x512.size inb_S2048x512_S2048x512_0_0,
            k0_pay11 Q (View.readAt (Elt F) arg3.view (Rect.unit (s := S2048x512) (k0_off1 k) S512x512.size (k0_off1_inb k)).toLoadRect X3)
              (View.readAt (Elt F) arg4.view (Rect.unit (s := S2048x1) ![0, 0] S2048x1.size inb_S2048x1_S2048x1_0_0).toLoadRect f4)
              (View.readAt (Elt F) arg6.view (Rect.unit (s := S2048x512) ![0, 0] S2048x512.size inb_S2048x512_S2048x512_0_0).toLoadRect f6)⟩]) := by
  unfold tripL_k0_t1
  unfold trip_k0_t1
  rfl

/-- The running arrays before trip `n`: what the trips before it have stored over the initial fills reads as the
    `n`-fold step from the fills. -/
theorem loop_reads (hX : arg3.view.read (Elt F) X3 = Q)
    (h4 : arg4.view.read (Elt F) G4 = k0_pay3) (h5 : arg5.view.read (Elt F) G5 = k0_pay4)
    (h6 : arg6.view.read (Elt F) G6 = k0_pay5) :
    ∀ n, n ≤ k0_t1_loop.trips →
      arg4.view.read (Elt F) (arg4.view.writes (Elt F) G4 (pb_k0_t1 (F := F) 𝒱 c bd i arg1 harg1 arg2 harg2 arg3 harg3 arg4 harg4 arg5 harg5 arg6 harg6 Q X3 G4 G5 G6 n).1) = (loopSt Q n).1
      ∧ arg5.view.read (Elt F) (arg5.view.writes (Elt F) G5 (pb_k0_t1 (F := F) 𝒱 c bd i arg1 harg1 arg2 harg2 arg3 harg3 arg4 harg4 arg5 harg5 arg6 harg6 Q X3 G4 G5 G6 n).2.1) = (loopSt Q n).2.1
      ∧ arg6.view.read (Elt F) (arg6.view.writes (Elt F) G6 (pb_k0_t1 (F := F) 𝒱 c bd i arg1 harg1 arg2 harg2 arg3 harg3 arg4 harg4 arg5 harg5 arg6 harg6 Q X3 G4 G5 G6 n).2.2) = (loopSt Q n).2.2 := by
  intro n
  induction n with
  | zero =>
    intro _
    refine ⟨?_, ?_, ?_⟩
    · show arg4.view.read (Elt F) (arg4.view.writes (Elt F) G4 []) = _
      rw [View.writes_nil]; exact h4
    · show arg5.view.read (Elt F) (arg5.view.writes (Elt F) G5 []) = _
      rw [View.writes_nil]; exact h5
    · show arg6.view.read (Elt F) (arg6.view.writes (Elt F) G6 []) = _
      rw [View.writes_nil]; exact h6
  | succ n ih =>
    intro hn
    have hlt : n < k0_t1_loop.trips := hn
    obtain ⟨i4, i5, i6⟩ := ih (Nat.le_of_lt hlt)
    have hs := pb_k0_t1_succ (F := F) 𝒱 c bd i arg1 harg1 arg2 harg2 arg3 harg3 arg4 harg4 arg5 harg5 arg6 harg6 Q X3 G4 G5 G6 ⟨n, hlt⟩
    rw [tripL_eq] at hs
    have hst : loopSt Q (n + 1)
        = (k0_pay12 Q (kTile Q ⟨n, hlt⟩) (loopSt Q n).1,
           k0_pay10 Q (kTile Q ⟨n, hlt⟩) (loopSt Q n).1 (loopSt Q n).2.1,
           k0_pay11 Q (kTile Q ⟨n, hlt⟩) (loopSt Q n).1 (loopSt Q n).2.2) := by
      rw [loopSt]; exact dif_pos hlt
    rw [show n + 1 = (⟨n, hlt⟩ : Fin k0_t1_loop.trips).val + 1 from rfl, hs, hst]
    dsimp only [List.cons_append, List.nil_append]
    simp only [View.readAt_eq_ld, hX, i4, i5, i6, View.ld_unit_zero (S := S2048x1) zeros2,
      View.ld_unit_zero (S := S2048x512) zeros2]
    refine ⟨?_, ?_, ?_⟩
    · exact read_writes_whole_cons (S := S2048x1) _ _ zeros2 _ _ _
    · exact read_writes_whole_cons (S := S2048x1) _ _ zeros2 _ _ _
    · exact read_writes_whole_cons (S := S2048x512) _ _ zeros2 _ _ _

end Trip

variable (m : (ℓ : Loc nD τ sig) → Buf (Elt F) ℓ)

/-- The body's run, read: the output block's one store holds `bodyVal` of the input block. -/
theorem out0_A_1_eq (c : Dev nD) (i : grid0.Coords) (arg1 : Memref sig .tc .vmem S1x2048x512 .f32) (harg1 : arg1.IsWhole) (arg2 : Memref sig .tc .vmem S1x1x512 .f32) (harg2 : arg2.IsWhole) (arg3 : Memref sig .tc .vmem S2048x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x512 .f32) (harg6 : arg6.IsWhole) (x0 : Vec F S1x2048x512 .f32) :
    out0_A_1 (F := F) c i arg1 harg1 arg2 harg2 arg3 harg3 arg4 harg4 arg5 harg5 arg6 harg6 x0 = bodyVal x0 := by
  unfold out0_A_1
  rw [View.read_writes_eq_canon _ _ _ (cover0_A_1 c i arg1 harg1 arg2 harg2 arg3 harg3 arg4 harg4 arg5 harg5 arg6 harg6 x0)]
  unfold kernelRun0_A
  dsimp only
  sl_unfold_words
  rw [View.canon_unit_zero zeros3]
  have hx : View.readAt (Elt F) arg1.view
      (Rect.unit (s := S1x2048x512) ![0, 0, 0] S1x2048x512.size inb_S1x2048x512_S1x2048x512_0_0_0).toLoadRect
      (harg1.unread x0) = x0 := by
    rw [View.readAt_eq_ld, harg1.read_unread, View.ld_unit_zero (S := S1x2048x512) zeros3]
  rw [hx, View.readCov_unit_zero (S := S2048x512) arg3.view zeros2, View.writes_append, View.writes_append]
  have hX : arg3.view.read (Elt F) (arg3.view.writes (Elt F) arg3.view.junk
      [⟨Rect.unit (s := S2048x512) ![0, 0] S2048x512.size inb_S2048x512_S2048x512_0_0, k0_pay2 x0⟩]) = k0_pay2 x0 := by
    rw [View.read_writes_junk_eq_canon]; exact View.canon_unit_zero (S := S2048x512) zeros2 _ _
  have h4 : arg4.view.read (Elt F) (arg4.view.writes (Elt F) arg4.view.junk
      [⟨Rect.unit (s := S2048x1) ![0, 0] S2048x1.size inb_S2048x1_S2048x1_0_0, k0_pay3⟩]) = k0_pay3 := by
    rw [View.read_writes_junk_eq_canon]; exact View.canon_unit_zero (S := S2048x1) zeros2 _ _
  have h5 : arg5.view.read (Elt F) (arg5.view.writes (Elt F) arg5.view.junk
      [⟨Rect.unit (s := S2048x1) ![0, 0] S2048x1.size inb_S2048x1_S2048x1_0_0, k0_pay4⟩]) = k0_pay4 := by
    rw [View.read_writes_junk_eq_canon]; exact View.canon_unit_zero (S := S2048x1) zeros2 _ _
  have h6 : arg6.view.read (Elt F) (arg6.view.writes (Elt F) arg6.view.junk
      [⟨Rect.unit (s := S2048x512) ![0, 0] S2048x512.size inb_S2048x512_S2048x512_0_0, k0_pay5⟩]) = k0_pay5 := by
    rw [View.read_writes_junk_eq_canon]; exact View.canon_unit_zero (S := S2048x512) zeros2 _ _
  obtain ⟨-, i5, i6⟩ := loop_reads (F := F) Variants.none c none i arg1 harg1 arg2 harg2 arg3 harg3 arg4 harg4 arg5 harg5
    arg6 harg6 (k0_pay2 x0) _ _ _ _ hX h4 h5 h6 k0_t1_loop.trips le_rfl
  rw [View.readAt_eq_ld, View.readAt_eq_ld, View.ld_unit_zero (S := S2048x512) zeros2,
    View.ld_unit_zero (S := S2048x1) zeros2]
  exact congrArg k0_pay1 (congrArg₂ k0_pay13 i6 i5)

/-- What the body leaves in the output's staging buffer at point `t` is `bodyVal` of the point's input block. -/
theorem outsAt0_eq (c : Dev nD) (t : Fin cfg0.N) : outsAt0 (F := F) m c t = bodyVal (iblk m c 0 t) := by
  unfold outsAt0
  exact out0_A_1_eq _ _ _ _ _ _ _ _ _ _ _ _ _ _ _

end Cert.KernelIdeal.Body

end
-- ==== Proof.RowMath.lean ====
/-
  The online softmax on one query row, over the reals.
-/
import proofs.«430922_j21337397526644_3_alg».proof.Proof.Spec

noncomputable section

namespace Cert.AttnMean

open Idealize.ShloMosaic

/-- The coercion of the reals into the extended reals goes through a finite sum. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it goes through a binary maximum. -/
theorem coe_max2 (a b : ℝ) : ((max a b : ℝ) : EReal) = max (a : EReal) (b : EReal) :=
  EReal.coe_strictMono.monotone.map_max

/-- The maximum of a nonempty finite family of reals, folded from `-∞`, is a real. -/
theorem fold_max_coe {ι : Type} (s : Finset ι) (hs : s.Nonempty) (f : ι → ℝ) :
    ∃ r : ℝ, s.fold max ⊥ (fun j => (f j : EReal)) = (r : EReal) := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr, coe_max2]

/-- The 32-bit word `0x3A000000` has exponent field 116 and no fraction: it is `2 ^ (116 - 127) = 1 / 2048`. -/
theorem ofBits_inv2048 : Ideal.ofBits .f32 0x3A000000#32 = ((1 / 2048 : ℝ) : EReal) := by
  simp [Ideal.ofBits, Ideal.ieee, -EReal.coe_mul]; norm_num

/-- One chunk from a state that holds, relative to some real shift `μ`, the sums `P` and `Q` of the terms seen so
    far: the new state holds, relative to the new shift, those sums with the chunk's own terms added.  The factor
    `exp (μ - μ')` turns `exp (-μ)` into `exp (-μ')`, and `exp (σ - μ') = exp (-μ') * exp σ`. -/
theorem rowStep_real (σ : Fin 512 → ℝ) (ν : Fin 512 → Fin 512 → ℝ) (μ P : ℝ) (Q : Fin 512 → ℝ) :
    ∃ μ' : ℝ, rowStep (fun j => (σ j : EReal)) (fun j e => (ν j e : EReal))
        ((μ : EReal), ((Real.exp (-μ) * P : ℝ) : EReal), fun d => ((Real.exp (-μ) * Q d : ℝ) : EReal))
      = ((μ' : EReal), ((Real.exp (-μ') * (P + ∑ j : Fin 512, Real.exp (σ j)) : ℝ) : EReal),
          fun d => ((Real.exp (-μ') * (Q d + ∑ j : Fin 512, Real.exp (σ j) * ν j d) : ℝ) : EReal)) := by
  obtain ⟨M, hM⟩ := fold_max_coe Finset.univ Finset.univ_nonempty σ
  refine ⟨max μ M, ?_⟩
  have hsh : ∀ x : ℝ, Real.exp (x - max μ M) = Real.exp (-max μ M) * Real.exp x := by
    intro x; rw [← Real.exp_add]; congr 1; ring
  have hone : Real.exp μ * Real.exp (-μ) = 1 := by rw [← Real.exp_add, add_neg_cancel, Real.exp_zero]
  unfold rowStep
  simp only [hM, ← coe_max2, ← EReal.coe_sub, Ideal.exp_coe, ← EReal.coe_mul, ← coe_finsum, ← EReal.coe_add, hsh]
  refine Prod.ext rfl (Prod.ext ?_ ?_)
  · show ((_ : ℝ) : EReal) = ((_ : ℝ) : EReal)
    congr 1
    rw [← Finset.mul_sum]
    linear_combination (Real.exp (-max μ M) * P) * hone
  · funext d
    show ((_ : ℝ) : EReal) = ((_ : ℝ) : EReal)
    congr 1
    simp only [mul_assoc]
    rw [← Finset.mul_sum]
    linear_combination (Real.exp (-max μ M) * Q d) * hone

/-- The first chunk: the old maximum is `-∞` and both old sums are zero, so the rescaled old terms vanish. -/
theorem rowStep_init (σ : Fin 512 → ℝ) (ν : Fin 512 → Fin 512 → ℝ) :
    ∃ μ' : ℝ, rowStep (fun j => (σ j : EReal)) (fun j e => (ν j e : EReal)) rowInit
      = ((μ' : EReal), ((Real.exp (-μ') * (∑ j : Fin 512, Real.exp (σ j)) : ℝ) : EReal),
          fun d => ((Real.exp (-μ') * (∑ j : Fin 512, Real.exp (σ j) * ν j d) : ℝ) : EReal)) := by
  obtain ⟨M, hM⟩ := fold_max_coe Finset.univ Finset.univ_nonempty σ
  refine ⟨M, ?_⟩
  have hsh : ∀ x : ℝ, Real.exp (x - M) = Real.exp (-M) * Real.exp x := by
    intro x; rw [← Real.exp_add]; congr 1; ring
  unfold rowStep rowInit
  simp only [hM, bot_le, max_eq_right, mul_zero, zero_add, ← EReal.coe_sub, Ideal.exp_coe, ← EReal.coe_mul,
    ← coe_finsum, hsh]
  refine Prod.ext rfl (Prod.ext ?_ ?_)
  · show ((_ : ℝ) : EReal) = ((_ : ℝ) : EReal)
    congr 1
    rw [← Finset.mul_sum]
  · funext d
    show ((_ : ℝ) : EReal) = ((_ : ℝ) : EReal)
    congr 1
    simp only [mul_assoc]
    rw [← Finset.mul_sum]

/-- After the four chunks the quotient numerator / denominator is the softmax-weighted average of all 2048 value
    rows: each rescaling multiplies numerator and denominator by the same positive factor, and the softmax does not
    depend on the shift. -/
theorem row_online (σ : Fin 4 → Fin 512 → ℝ) (ν : Fin 4 → Fin 512 → Fin 512 → ℝ) (d : Fin 512) :
    Ideal.div ((rowRun (fun c j => (σ c j : EReal)) (fun c j e => (ν c j e : EReal))).2.2 d)
        (rowRun (fun c j => (σ c j : EReal)) (fun c j e => (ν c j e : EReal))).2.1
      = (((∑ c : Fin 4, ∑ j : Fin 512, Real.exp (σ c j) * ν c j d)
          / (∑ c : Fin 4, ∑ j : Fin 512, Real.exp (σ c j)) : ℝ) : EReal) := by
  obtain ⟨μ0, h0⟩ := rowStep_init (σ 0) (ν 0)
  obtain ⟨μ1, h1⟩ := rowStep_real (σ 1) (ν 1) μ0 (∑ j : Fin 512, Real.exp (σ 0 j))
    (fun d => ∑ j : Fin 512, Real.exp (σ 0 j) * ν 0 j d)
  obtain ⟨μ2, h2⟩ := rowStep_real (σ 2) (ν 2) μ1 (∑ j : Fin 512, Real.exp (σ 0 j) + ∑ j : Fin 512, Real.exp (σ 1 j))
    (fun d => ∑ j : Fin 512, Real.exp (σ 0 j) * ν 0 j d + ∑ j : Fin 512, Real.exp (σ 1 j) * ν 1 j d)
  obtain ⟨μ3, h3⟩ := rowStep_real (σ 3) (ν 3) μ2
    (∑ j : Fin 512, Real.exp (σ 0 j) + ∑ j : Fin 512, Real.exp (σ 1 j) + ∑ j : Fin 512, Real.exp (σ 2 j))
    (fun d => ∑ j : Fin 512, Real.exp (σ 0 j) * ν 0 j d + ∑ j : Fin 512, Real.exp (σ 1 j) * ν 1 j d
      + ∑ j : Fin 512, Real.exp (σ 2 j) * ν 2 j d)
  have hrun : rowRun (fun c j => (σ c j : EReal)) (fun c j e => (ν c j e : EReal))
      = ((μ3 : EReal),
          ((Real.exp (-μ3) * (∑ j : Fin 512, Real.exp (σ 0 j) + ∑ j : Fin 512, Real.exp (σ 1 j)
              + ∑ j : Fin 512, Real.exp (σ 2 j) + ∑ j : Fin 512, Real.exp (σ 3 j)) : ℝ) : EReal),
          fun d => ((Real.exp (-μ3) * (∑ j : Fin 512, Real.exp (σ 0 j) * ν 0 j d
              + ∑ j : Fin 512, Real.exp (σ 1 j) * ν 1 j d + ∑ j : Fin 512, Real.exp (σ 2 j) * ν 2 j d
              + ∑ j : Fin 512, Real.exp (σ 3 j) * ν 3 j d) : ℝ) : EReal)) := by
    unfold rowRun
    dsimp only
    rw [h0, h1, h2, h3]
  have hpos : ∀ c : Fin 4, 0 < ∑ j : Fin 512, Real.exp (σ c j) := fun c =>
    Finset.sum_pos (fun j _ => Real.exp_pos _) Finset.univ_nonempty
  have hP : 0 < ∑ j : Fin 512, Real.exp (σ 0 j) + ∑ j : Fin 512, Real.exp (σ 1 j)
      + ∑ j : Fin 512, Real.exp (σ 2 j) + ∑ j : Fin 512, Real.exp (σ 3 j) :=
    add_pos (add_pos (add_pos (hpos 0) (hpos 1)) (hpos 2)) (hpos 3)
  have hL : Real.exp (-μ3) * (∑ j : Fin 512, Real.exp (σ 0 j) + ∑ j : Fin 512, Real.exp (σ 1 j)
      + ∑ j : Fin 512, Real.exp (σ 2 j) + ∑ j : Fin 512, Real.exp (σ 3 j)) ≠ 0 :=
    (mul_pos (Real.exp_pos _) hP).ne'
  rw [hrun]
  dsimp only
  rw [Ideal.div_coe hL, ← EReal.coe_mul, Fin.sum_univ_four, Fin.sum_univ_four]
  congr 1
  rw [mul_one_div, mul_div_mul_left _ _ (Real.exp_pos _).ne']

/-- A sum over the 2048 keys is the sum over the four chunks of the sums over each chunk's 512 keys. -/
theorem sum_chunks (f : Fin 2048 → ℝ) :
    ∑ k : Fin 2048, f k
      = ∑ c : Fin 4, ∑ j : Fin 512, f ⟨512 * c.val + j.val, by have := c.isLt; have := j.isLt; omega⟩ := by
  calc ∑ k : Fin 2048, f k
      = ∑ x : Fin 4 × Fin 512, f ((finProdFinEquiv : Fin 4 × Fin 512 ≃ Fin 2048) x) :=
        (Equiv.sum_comp (finProdFinEquiv : Fin 4 × Fin 512 ≃ Fin 2048) f).symm
    _ = ∑ c : Fin 4, ∑ j : Fin 512, f ((finProdFinEquiv : Fin 4 × Fin 512 ≃ Fin 2048) (c, j)) :=
        Fintype.sum_prod_type _
    _ = _ := by
        refine Finset.sum_congr rfl fun c _ => Finset.sum_congr rfl fun j _ => ?_
        congr 1
        ext
        simp [finProdFinEquiv]
        omega

/-- The kernel's mean: the sum of the contexts times the word of `2⁻¹¹`. -/
theorem mean_mul (a : Fin 2048 → ℝ) :
    (∑ q : Fin 2048, (a q : EReal)) * Ideal.ofBits .f32 0x3A000000#32 = (((∑ q : Fin 2048, a q) / 2048 : ℝ) : EReal) := by
  rw [ofBits_inv2048, ← coe_finsum, ← EReal.coe_mul]
  congr 1
  ring

end Cert.AttnMean

end
-- ==== Proof.PayIdx.lean ====
/-
  The kernel body's arithmetic read at an index, at the extended reals: each stored value of one chunk's step is,
  row by row, the online-softmax step `rowStep` of that row's state.
-/
import proofs.«430922_j21337397526644_3_alg».proof.Proof.Spec
import proofs.«430922_j21337397526644_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayIdx

open Idealize.ShloMosaic Idealize.ShloMosaic.ValueIdx Cert.KernelIdeal Cert.KernelIdeal.Gen Cert.AttnMean

/-- The word of minus infinity. -/
theorem ofBits_negInf_f32 : Ideal.ofBits .f32 0xFF800000#32 = (⊥ : EReal) := by
  simp [Ideal.ofBits, Ideal.ieee]

/-- A column broadcast along the rows reads the column's entry of the same row. -/
theorem bcastCol_apply (c : FVec Ideal S2048x1 .f32) (q : Fin 2048) (j : Fin 512) :
    broadcastTo S2048x512 c broadcasts_S2048x1_S2048x512 (ix2 q j) = c (ix2 q 0) := by
  refine broadcastTo_apply c broadcasts_S2048x1_S2048x512 (ix2 q j) (ix2 q 0) fun a => ?_
  match a with
  | ⟨0, _⟩ => rfl
  | ⟨1, _⟩ => rfl

/-- A vector of 2048 entries viewed as a column reads its entry. -/
theorem colCast_apply (v : FVec Ideal S2048 .f32) (q : Fin 2048) :
    shapeCast S2048x1 v shapeCasts_S2048_S2048x1 (ix2 q 0) = v (ix1 q) := by
  refine shapeCast_apply v shapeCasts_S2048_S2048x1 (ix2 q 0) (ix1 q) ?_
  rw [Shape.rowMajor_val_two, Shape.rowMajor_val_one]
  show q.val = q.val * 1 + 0
  omega

/-! ### The two products read at an index -/

/-- The first product's operand indices, axis by axis: both operands are contracted on their second axis, so the left
    reads the output's row and the right reads the output's column as ITS row. -/
theorem lhs_qk_0 (i : S2048x512.Idx) (k : dot_S2048x512_S512x512_S2048x512_1_1_0_0_n_n.contr.Idx) :
    (dot_S2048x512_S512x512_S2048x512_1_1_0_0_n_n.lhsIdx i k 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem lhs_qk_1 (i : S2048x512.Idx) (k : dot_S2048x512_S512x512_S2048x512_1_1_0_0_n_n.contr.Idx) :
    (dot_S2048x512_S512x512_S2048x512_1_1_0_0_n_n.lhsIdx i k 1).val = (k ⟨0, by decide⟩).val :=
  dot_S2048x512_S512x512_S2048x512_1_1_0_0_n_n.lhsIdx_val_of_single rfl i k
theorem rhs_qk_0 (i : S2048x512.Idx) (k : dot_S2048x512_S512x512_S2048x512_1_1_0_0_n_n.contr.Idx) :
    (dot_S2048x512_S512x512_S2048x512_1_1_0_0_n_n.rhsIdx i k 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem rhs_qk_1 (i : S2048x512.Idx) (k : dot_S2048x512_S512x512_S2048x512_1_1_0_0_n_n.contr.Idx) :
    (dot_S2048x512_S512x512_S2048x512_1_1_0_0_n_n.rhsIdx i k 1).val = (k ⟨0, by decide⟩).val :=
  dot_S2048x512_S512x512_S2048x512_1_1_0_0_n_n.rhsIdx_val_of_single rfl i k

/-- The scores of a tile at an index: the inner product of the query row and the key row. -/
theorem pay6_apply (Q : FVec Ideal S2048x512 .bf16) (K : FVec Ideal S512x512 .bf16) (q : Fin 2048) (j : Fin 512) :
    k0_pay6 (F := Ideal) Q K (ix2 q j) = ∑ e : Fin 512, Q (ix2 q e) * K (ix2 j e) := by
  unfold k0_pay6
  refine (Ideal.matmul_constant_zero_apply dot_S2048x512_S512x512_S2048x512_1_1_0_0_n_n none Q K (ix2 q j)).trans ?_
  rw [← Equiv.sum_comp (contrEquiv1 dot_S2048x512_S512x512_S2048x512_1_1_0_0_n_n 512 rfl rfl).symm]
  refine Finset.sum_congr rfl fun e _ => ?_
  have hk := contrEquiv1_symm_val dot_S2048x512_S512x512_S2048x512_1_1_0_0_n_n 512 rfl rfl e
  have el : dot_S2048x512_S512x512_S2048x512_1_1_0_0_n_n.lhsIdx (ix2 q j) ((contrEquiv1 dot_S2048x512_S512x512_S2048x512_1_1_0_0_n_n 512 rfl rfl).symm e) = ix2 q e := funext fun a => Fin.ext (by
    match a with
    | ⟨0, _⟩ => exact lhs_qk_0 _ _
    | ⟨1, _⟩ => exact (lhs_qk_1 _ _).trans hk)
  have er : dot_S2048x512_S512x512_S2048x512_1_1_0_0_n_n.rhsIdx (ix2 q j) ((contrEquiv1 dot_S2048x512_S512x512_S2048x512_1_1_0_0_n_n 512 rfl rfl).symm e) = ix2 j e := funext fun a => Fin.ext (by
    match a with
    | ⟨0, _⟩ => exact rhs_qk_0 _ _
    | ⟨1, _⟩ => exact (rhs_qk_1 _ _).trans hk)
  rw [el, er]

/-- The second product's operand indices: the left is contracted on its second axis, the right on its first. -/
theorem lhs_pv_0 (i : S2048x512.Idx) (k : dot_S2048x512_S512x512_S2048x512_1_0_0_1_n_n.contr.Idx) :
    (dot_S2048x512_S512x512_S2048x512_1_0_0_1_n_n.lhsIdx i k 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_pv_1 (i : S2048x512.Idx) (k : dot_S2048x512_S512x512_S2048x512_1_0_0_1_n_n.contr.Idx) :
    (dot_S2048x512_S512x512_S2048x512_1_0_0_1_n_n.lhsIdx i k 1).val = (k ⟨0, by decide⟩).val :=
  dot_S2048x512_S512x512_S2048x512_1_0_0_1_n_n.lhsIdx_val_of_single rfl i k
theorem rhs_pv_0 (i : S2048x512.Idx) (k : dot_S2048x512_S512x512_S2048x512_1_0_0_1_n_n.contr.Idx) :
    (dot_S2048x512_S512x512_S2048x512_1_0_0_1_n_n.rhsIdx i k 0).val = (k ⟨0, by decide⟩).val :=
  dot_S2048x512_S512x512_S2048x512_1_0_0_1_n_n.rhsIdx_val_of_single rfl i k
theorem rhs_pv_1 (i : S2048x512.Idx) (k : dot_S2048x512_S512x512_S2048x512_1_0_0_1_n_n.contr.Idx) :
    (dot_S2048x512_S512x512_S2048x512_1_0_0_1_n_n.rhsIdx i k 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The weights times the tile's rows, at an index. -/
theorem pv_apply (P : FVec Ideal S2048x512 .bf16) (K : FVec Ideal S512x512 .bf16) (q : Fin 2048) (d : Fin 512) :
    matmul (F := Ideal) dot_S2048x512_S512x512_S2048x512_1_0_0_1_n_n none P K (constant S2048x512 .f32 0x00000000#32) (ix2 q d)
      = ∑ j : Fin 512, P (ix2 q j) * K (ix2 j d) := by
  refine (Ideal.matmul_constant_zero_apply dot_S2048x512_S512x512_S2048x512_1_0_0_1_n_n none P K (ix2 q d)).trans ?_
  rw [← Equiv.sum_comp (contrEquiv1 dot_S2048x512_S512x512_S2048x512_1_0_0_1_n_n 512 rfl rfl).symm]
  refine Finset.sum_congr rfl fun j _ => ?_
  have hk := contrEquiv1_symm_val dot_S2048x512_S512x512_S2048x512_1_0_0_1_n_n 512 rfl rfl j
  have el : dot_S2048x512_S512x512_S2048x512_1_0_0_1_n_n.lhsIdx (ix2 q d) ((contrEquiv1 dot_S2048x512_S512x512_S2048x512_1_0_0_1_n_n 512 rfl rfl).symm j) = ix2 q j := funext fun a => Fin.ext (by
    match a with
    | ⟨0, _⟩ => exact lhs_pv_0 _ _
    | ⟨1, _⟩ => exact (lhs_pv_1 _ _).trans hk)
  have er : dot_S2048x512_S512x512_S2048x512_1_0_0_1_n_n.rhsIdx (ix2 q d) ((contrEquiv1 dot_S2048x512_S512x512_S2048x512_1_0_0_1_n_n 512 rfl rfl).symm j) = ix2 j d := funext fun a => Fin.ext (by
    match a with
    | ⟨0, _⟩ => exact (rhs_pv_0 _ _).trans hk
    | ⟨1, _⟩ => exact rhs_pv_1 _ _)
  rw [el, er]

/-- Query row `q`'s scores against the 512 key rows of a tile: inner products over the 512 features. -/
def tileScore (Q : FVec Ideal S2048x512 .bf16) (K : FVec Ideal S512x512 .bf16) (q : Fin 2048) : Fin 512 → EReal :=
  fun j => ∑ e : Fin 512, Q (ix2 q e) * K (ix2 j e)

/-- The tile's rows as values. -/
def tileRows (K : FVec Ideal S512x512 .bf16) : Fin 512 → Fin 512 → EReal := fun j d => K (ix2 j d)

/-- Row `q` of the three running arrays. -/
def rowState (m l : FVec Ideal S2048x1 .f32) (acc : FVec Ideal S2048x512 .f32) (q : Fin 2048) :
    EReal × EReal × (Fin 512 → EReal) := (m (ix2 q 0), l (ix2 q 0), fun d => acc (ix2 q d))

variable (Q : FVec Ideal S2048x512 .bf16) (K : FVec Ideal S512x512 .bf16)
  (m l : FVec Ideal S2048x1 .f32) (acc : FVec Ideal S2048x512 .f32)

/-- Along the reduced second axis, the index over row `q` with column `j` inserted is `(q, j)`. -/
theorem lift_row (q : Fin 2048) (j : Fin 512) : reduces_S2048x512_S2048.lift (ix1 q) j = ix2 q j := by
  funext a
  match a with
  | ⟨0, _⟩ => rfl
  | ⟨1, _⟩ => rfl

/-- A row's maximum over the tile: the fold of `max` from `-∞` over the row's scores. -/
theorem rowMax_apply (q : Fin 2048) :
    multiReduction (F := Ideal) .maximumf [1] S2048 (k0_pay6 (F := Ideal) Q K) 0xFF800000#32 reduces_S2048x512_S2048 (.inl rfl) rfl (ix1 q)
      = Finset.univ.fold max ⊥ (tileScore Q K q) := by
  refine (Ideal.multiReduction_maximumf_single _ _ reduces_S2048x512_S2048 (.inl rfl) rfl (ix1 q)).trans ?_
  show (Finset.univ : Finset (Fin 512)).fold max (Ideal.ofBits .f32 0xFF800000#32)
      (fun j : Fin 512 => k0_pay6 (F := Ideal) Q K (reduces_S2048x512_S2048.lift (ix1 q) j)) = _
  rw [ofBits_negInf_f32]
  refine congrArg (Finset.univ.fold max ⊥) (funext fun j => ?_)
  rw [lift_row]
  exact pay6_apply Q K q j

/-- The new maximum of row `q`: the old one joined with the tile's. -/
theorem pay7_apply (q : Fin 2048) :
    k0_pay7 (F := Ideal) Q K m (ix2 q 0) = max (m (ix2 q 0)) (Finset.univ.fold max ⊥ (tileScore Q K q)) := by
  unfold k0_pay7
  refine (maximumf_apply _ _ _).trans ?_
  refine congrArg (max (m (ix2 q 0))) ?_
  refine (colCast_apply _ q).trans ?_
  exact rowMax_apply Q K q

/-- The rescaling factor of row `q`: the exponential of old maximum minus new. -/
theorem pay8_apply (q : Fin 2048) :
    k0_pay8 (F := Ideal) Q K m (ix2 q 0)
      = Ideal.exp (m (ix2 q 0) - max (m (ix2 q 0)) (Finset.univ.fold max ⊥ (tileScore Q K q))) := by
  unfold k0_pay8
  show Ideal.exp (m (ix2 q 0) - k0_pay7 (F := Ideal) Q K m (ix2 q 0)) = _
  rw [pay7_apply]

/-- The tile's weights: the exponential of each score minus the row's new maximum. -/
theorem pay9_apply (q : Fin 2048) (j : Fin 512) :
    k0_pay9 (F := Ideal) Q K m (ix2 q j)
      = Ideal.exp (tileScore Q K q j - max (m (ix2 q 0)) (Finset.univ.fold max ⊥ (tileScore Q K q))) := by
  unfold k0_pay9
  show Ideal.exp (k0_pay6 (F := Ideal) Q K (ix2 q j)
    - broadcastTo S2048x512 (k0_pay7 (F := Ideal) Q K m) broadcasts_S2048x1_S2048x512 (ix2 q j)) = _
  rw [bcastCol_apply, pay7_apply, pay6_apply]
  rfl

/-- The stored maximum. -/
theorem pay12_apply (q : Fin 2048) :
    k0_pay12 (F := Ideal) Q K m (ix2 q 0) = (rowStep (tileScore Q K q) (tileRows K) (rowState m l acc q)).1 := by
  unfold k0_pay12
  rw [shapeCast_self]
  exact pay7_apply Q K m q

/-- The stored denominator. -/
theorem pay10_apply (q : Fin 2048) :
    k0_pay10 (F := Ideal) Q K m l (ix2 q 0) = (rowStep (tileScore Q K q) (tileRows K) (rowState m l acc q)).2.1 := by
  unfold k0_pay10
  rw [shapeCast_self]
  refine (addf_apply _ _ _).trans ?_
  show _ = Ideal.exp (m (ix2 q 0) - max (m (ix2 q 0)) (Finset.univ.fold max ⊥ (tileScore Q K q))) * l (ix2 q 0)
    + ∑ j : Fin 512, Ideal.exp (tileScore Q K q j - max (m (ix2 q 0)) (Finset.univ.fold max ⊥ (tileScore Q K q)))
  refine congrArg₂ (· + ·) ?_ ?_
  · refine (mulf_apply _ _ _).trans ?_
    rw [pay8_apply]
  · refine (colCast_apply _ q).trans ?_
    refine (Ideal.multiReduction_add_single _ _ reduces_S2048x512_S2048 (.inl rfl) rfl (ix1 q)).trans ?_
    refine Finset.sum_congr rfl fun (j : Fin 512) _ => ?_
    rw [lift_row]
    exact pay9_apply Q K m q j

/-- The stored numerator. -/
theorem pay11_apply (q : Fin 2048) (d : Fin 512) :
    k0_pay11 (F := Ideal) Q K m acc (ix2 q d) = (rowStep (tileScore Q K q) (tileRows K) (rowState m l acc q)).2.2 d := by
  unfold k0_pay11
  rw [shapeCast_self]
  refine (addf_apply _ _ _).trans ?_
  show _ = Ideal.exp (m (ix2 q 0) - max (m (ix2 q 0)) (Finset.univ.fold max ⊥ (tileScore Q K q))) * acc (ix2 q d)
    + ∑ j : Fin 512, Ideal.exp (tileScore Q K q j - max (m (ix2 q 0)) (Finset.univ.fold max ⊥ (tileScore Q K q))) * tileRows K j d
  refine congrArg₂ (· + ·) ?_ ?_
  · refine (mulf_apply _ _ _).trans ?_
    rw [bcastCol_apply, pay8_apply]
  · refine (pv_apply _ K q d).trans ?_
    refine Finset.sum_congr rfl fun j _ => ?_
    show k0_pay9 (F := Ideal) Q K m (ix2 q j) * K (ix2 j d) = _
    rw [pay9_apply]
    rfl

/-- The initial fills. -/
theorem pay3_apply (q : Fin 2048) : k0_pay3 (F := Ideal) (ix2 q 0) = (⊥ : EReal) := by
  unfold k0_pay3
  rw [shapeCast_self]
  exact ofBits_negInf_f32
theorem pay4_apply (q : Fin 2048) : k0_pay4 (F := Ideal) (ix2 q 0) = (0 : EReal) := by
  unfold k0_pay4
  rw [shapeCast_self]
  exact Ideal.ofBits_zero_f32
theorem pay5_apply (q : Fin 2048) (d : Fin 512) : k0_pay5 (F := Ideal) (ix2 q d) = (0 : EReal) := by
  unfold k0_pay5
  rw [shapeCast_self]
  exact Ideal.ofBits_zero_f32

/-- The block re-laid as a matrix; the change of format is the identity. -/
theorem pay2_apply (x0 : Vec Ideal S1x2048x512 .f32) (q : Fin 2048) (e : Fin 512) :
    k0_pay2 (F := Ideal) x0 (ix2 q e) = x0 (ix3 0 q e) := by
  unfold k0_pay2
  rw [shapeCast_self]
  refine (shapeCast_dropUnit_apply ![2048, 512] x0 shapeCasts_S1x2048x512_S2048x512 (ix2 q e)).trans ?_
  refine congrArg x0 (funext fun a => ?_)
  match a with
  | ⟨0, _⟩ => rfl
  | ⟨1, _⟩ => rfl
  | ⟨2, _⟩ => rfl

/-- The closing: the quotients summed over the queries, times the word of `2⁻¹¹`. -/
theorem pay13_apply (d : Fin 512) :
    k0_pay13 (F := Ideal) acc l (ix2 0 d)
      = (∑ q : Fin 2048, Ideal.div (acc (ix2 q d)) (l (ix2 q 0))) * Ideal.ofBits .f32 0x3A000000#32 := by
  unfold k0_pay13
  refine (mulf_apply _ _ _).trans ?_
  refine congrArg (· * Ideal.ofBits .f32 0x3A000000#32) ?_
  refine (shapeCast_addUnit_apply ![512] _ shapeCasts_S512_S1x512 (ix2 0 d)).trans ?_
  refine (Ideal.multiReduction_add_single _ _ reduces_S2048x512_S512 (.inl rfl) rfl _).trans ?_
  refine Finset.sum_congr rfl fun (q : Fin 2048) _ => ?_
  have e : reduces_S2048x512_S512.lift (fun a => (ix2 (0 : Fin 1) d) a.succ) q = ix2 q d := by
    funext a
    match a with
    | ⟨0, _⟩ => rfl
    | ⟨1, _⟩ => rfl
  rw [e]
  refine (divf_apply _ _ _).trans ?_
  exact congrArg (Ideal.div (acc (ix2 q d))) (bcastCol_apply l q d)

/-- The result row re-laid as the output block. -/
theorem pay1_apply (v : FVec Ideal S1x512 .f32) (d : Fin 512) :
    k0_pay1 (F := Ideal) v (ix3 0 0 d) = v (ix2 0 d) := by
  unfold k0_pay1
  refine (shapeCast_addUnit_apply ![1, 512] v _ (ix3 0 0 d)).trans ?_
  refine congrArg v (funext fun a => ?_)
  match a with
  | ⟨0, _⟩ => rfl
  | ⟨1, _⟩ => rfl

end Cert.KernelIdeal.PayIdx

end
-- ==== Proof.BodyMath.lean ====
/-
  The body's output block at the extended reals, for a block of real entries: entry `d` is the mean over the queries
  of the softmax-weighted averages of the block's rows.  Row by row the three running arrays follow the online
  softmax (`rowStep`), the scores and value rows of key tile `c` being those of rows `512 c … 512 c + 511`; after the
  four tiles the quotient is the row's context, whatever shifts were used on the way.
-/
import proofs.«430922_j21337397526644_3_alg».proof.Proof.Spec
import proofs.«430922_j21337397526644_3_alg».proof.Proof.RowMath
import proofs.«430922_j21337397526644_3_alg».proof.Proof.PayIdx
import proofs.«430922_j21337397526644_3_alg».proof.Proof.BodyRun

noncomputable section

namespace Cert.KernelIdeal.Body

open Idealize.ShloMosaic Idealize.ShloMosaic.ValueIdx
open Cert.KernelIdeal Cert.KernelIdeal.Gen Cert.KernelIdeal.PayIdx Cert.AttnMean

/-- A real sum, as an extended real, is the sum of the extended reals. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Chunk `c` of four as a trip of the sweep. -/
def tk (c : Fin 4) : Fin k0_t1_loop.trips := ⟨c.val, by rw [trips_eq]; exact c.isLt⟩

section
variable (x0 : Vec Ideal S1x2048x512 .f32)

/-- The block as the matrix the sweep works on. -/
abbrev Qm : FVec Ideal S2048x512 .bf16 := k0_pay2 (F := Ideal) x0

/-- Row `q` of the three running arrays before trip `n`. -/
def rs (n : ℕ) (q : Fin 2048) : EReal × EReal × (Fin 512 → EReal) :=
  rowState (loopSt (F := Ideal) (Qm x0) n).1 (loopSt (F := Ideal) (Qm x0) n).2.1 (loopSt (F := Ideal) (Qm x0) n).2.2 q

theorem rs_zero (q : Fin 2048) : rs x0 0 q = rowInit := by
  unfold rs rowState rowInit
  rw [loopSt_zero]
  exact Prod.ext (pay3_apply q) (Prod.ext (pay4_apply q) (funext fun d => pay5_apply q d))

theorem rs_succ (k : Fin k0_t1_loop.trips) (q : Fin 2048) :
    rs x0 (k.val + 1) q
      = rowStep (tileScore (Qm x0) (kTile (F := Ideal) (Qm x0) k) q) (tileRows (kTile (F := Ideal) (Qm x0) k)) (rs x0 k.val q) := by
  unfold rs
  rw [loopSt_succ]
  exact Prod.ext (pay12_apply (Qm x0) (kTile (F := Ideal) (Qm x0) k) (loopSt (F := Ideal) (Qm x0) k.val).1 (loopSt (F := Ideal) (Qm x0) k.val).2.1 (loopSt (F := Ideal) (Qm x0) k.val).2.2 q)
    (Prod.ext (pay10_apply (Qm x0) (kTile (F := Ideal) (Qm x0) k) (loopSt (F := Ideal) (Qm x0) k.val).1 (loopSt (F := Ideal) (Qm x0) k.val).2.1 (loopSt (F := Ideal) (Qm x0) k.val).2.2 q)
      (funext fun d => pay11_apply (Qm x0) (kTile (F := Ideal) (Qm x0) k) (loopSt (F := Ideal) (Qm x0) k.val).1 (loopSt (F := Ideal) (Qm x0) k.val).2.1 (loopSt (F := Ideal) (Qm x0) k.val).2.2 q d))

/-- After the four trips row `q` holds the four-chunk run of the online softmax. -/
theorem rs_four (q : Fin 2048) :
    rs x0 4 q = rowRun (fun c => tileScore (Qm x0) (kTile (F := Ideal) (Qm x0) (tk c)) q) (fun c => tileRows (kTile (F := Ideal) (Qm x0) (tk c))) := by
  unfold rowRun
  show rs x0 ((tk 3).val + 1) q = _
  rw [rs_succ]
  show rowStep _ _ (rs x0 ((tk 2).val + 1) q) = _
  rw [rs_succ]
  show rowStep _ _ (rowStep _ _ (rs x0 ((tk 1).val + 1) q)) = _
  rw [rs_succ]
  show rowStep _ _ (rowStep _ _ (rowStep _ _ (rs x0 ((tk 0).val + 1) q))) = _
  rw [rs_succ]
  show rowStep _ _ (rowStep _ _ (rowStep _ _ (rowStep _ _ (rs x0 0 q)))) = _
  rw [rs_zero]

end

/-- Row `512 c + j` of the sequence. -/
def chunkRow (c : Fin 4) (j : Fin 512) : Fin 2048 := ⟨512 * c.val + j.val, by have := c.isLt; have := j.isLt; omega⟩

theorem bodyVal_closed (x0 : Vec Ideal S1x2048x512 .f32) (h : AllReal x0) (d : Fin 512) :
    bodyVal (F := Ideal) x0 (ix3 0 0 d) = ((meanCtx (seqOfBlock x0) d : ℝ) : EReal) := by
  -- the block's entries as reals
  have hr : ∀ (q : Fin 2048) (e : Fin 512), x0 (ix3 0 q e) = ((seqOfBlock x0 q e : ℝ) : EReal) := by
    intro q e
    obtain ⟨ρ, hρ⟩ := h (ix3 0 q e)
    show _ = (((x0 (ix3 0 q e)).toReal : ℝ) : EReal)
    rw [hρ, EReal.toReal_coe]
  have hQ : ∀ (q : Fin 2048) (e : Fin 512), Qm x0 (ix2 q e) = ((seqOfBlock x0 q e : ℝ) : EReal) := fun q e =>
    (pay2_apply x0 q e).trans (hr q e)
  -- each query's quotient after the sweep is its context
  have hrow : ∀ q : Fin 2048,
      Ideal.div ((loopSt (F := Ideal) (Qm x0) 4).2.2 (ix2 q d)) ((loopSt (F := Ideal) (Qm x0) 4).2.1 (ix2 q 0))
        = ((ctx (seqOfBlock x0) q d : ℝ) : EReal) := by
    intro q
    have h4 := rs_four x0 q
    have hs : (fun c => tileScore (Qm x0) (kTile (F := Ideal) (Qm x0) (tk c)) q)
        = fun (c : Fin 4) (j : Fin 512) => ((score (seqOfBlock x0) q (chunkRow c j) : ℝ) : EReal) := by
      funext c j
      unfold tileScore score
      rw [coe_sum_real]
      refine Finset.sum_congr rfl fun e _ => ?_
      rw [kTile_apply (F := Ideal) (Qm x0) (tk c) j e (chunkRow c j).isLt, hQ, hQ, EReal.coe_mul]
      rfl
    have hv : (fun c => tileRows (kTile (F := Ideal) (Qm x0) (tk c)))
        = fun (c : Fin 4) (j : Fin 512) (e : Fin 512) => ((seqOfBlock x0 (chunkRow c j) e : ℝ) : EReal) := by
      funext c j e
      unfold tileRows
      rw [kTile_apply (F := Ideal) (Qm x0) (tk c) j e (chunkRow c j).isLt, hQ]
      rfl
    rw [hs, hv] at h4
    have hon := row_online (fun c j => score (seqOfBlock x0) q (chunkRow c j))
      (fun c j e => seqOfBlock x0 (chunkRow c j) e) d
    rw [← h4] at hon
    refine hon.trans ?_
    unfold ctx
    rw [sum_chunks (fun k => Real.exp (score (seqOfBlock x0) q k) * seqOfBlock x0 k d),
      sum_chunks (fun k => Real.exp (score (seqOfBlock x0) q k))]
    rfl
  unfold bodyVal
  rw [trips_eq, pay1_apply, pay13_apply]
  rw [Finset.sum_congr rfl fun q _ => hrow q]
  rw [mean_mul]
  rfl

end Cert.KernelIdeal.Body

end
-- ==== Proof.Blocks.lean ====
/-
  From the body's blocks to the result array: grid point `b` reads block `b` of the argument (one batch entry) and
  writes block `b` of the kernel's output; the eight blocks tile it; the closing reshape drops the unit axis.
-/
import proofs.«430922_j21337397526644_3_alg».proof.Proof.Spec
import proofs.«430922_j21337397526644_3_alg».proof.Proof.BodyRun
import proofs.«430922_j21337397526644_3_alg».proof.Proof.BodyMath
import proofs.«430922_j21337397526644_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen Cert.KernelIdeal.Body Cert.AttnMean

section
variable (m : (ℓ : Loc nD τ sig) → Buf (Elt Ideal) ℓ)

/-- Grid point `t`'s input block and the argument array, named at their literal types. -/
abbrev xblk (c : Dev nD) (t : Fin cfg0.N) : Vec Ideal S1x2048x512 .f32 := iblk m c 0 t
abbrev xarr (c : Dev nD) : Vec Ideal S8x2048x512 .f32 := V m c main_arg0

theorem xarr_eq (c : Dev nD) : xarr m c = m ((c : Thread nD τ).loc main_arg0) := V_main_arg0 m c

/-- The batch entry grid point `t` works on: the point's own number. -/
def bOf (t : Fin cfg0.N) : Fin 8 := ⟨t.val, lt_of_lt_of_eq t.isLt N_0⟩

/-- The kernel's output array as one function of the argument array: entry `(b, 0, d)` is the mean context of
    sequence `b` at feature `d`. -/
def Gk (x : S8x2048x512.Idx → EReal) : S8x1x512.Idx → EReal :=
  fun j => ((meanCtx (seqOf x (j 0)) (j 2) : ℝ) : EReal)

/-- The printed index maps over the grid: both windows' block index is `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Block `t` of the argument read at `(0, q, e)` is the argument at `(t, q, e)`. -/
theorem xblk_apply (c : Dev nD) (t : Fin cfg0.N) (q : Fin 2048) (e : Fin 512) :
    xblk m c t (ix3 0 q e) = xarr m c (ix3 (bOf t) q e) := by
  obtain ⟨e0, e1, e2, -, -, -⟩ := idx_facts t
  show V m c main_arg0 (((cfg0.win 0).blk t).view.emb (ix3 0 q e)) = V m c main_arg0 (ix3 (bOf t) q e)
  congr 1
  funext a
  apply Fin.ext
  match a with
  | ⟨0, _⟩ => show win0_0.index t (0 : Fin 3) * 1 + 1 * 0 = t.val; omega
  | ⟨1, _⟩ => show win0_0.index t (1 : Fin 3) * 2048 + 1 * q.val = q.val; omega
  | ⟨2, _⟩ => show win0_0.index t (2 : Fin 3) * 512 + 1 * e.val = e.val; omega

/-- A block of the argument holds real entries when the argument does. -/
theorem xblk_real (c : Dev nD) (h : AllReal (xarr m c)) (t : Fin cfg0.N) : AllReal (xblk m c t) := by
  intro i
  have hi : i = ix3 (0 : Fin 1) (⟨(i 1).val, (i 1).isLt⟩ : Fin 2048) (⟨(i 2).val, (i 2).isLt⟩ : Fin 512) := by
    funext a
    apply Fin.ext
    match a with
    | ⟨0, _⟩ => show (i 0).val = 0; have : (i 0).val < 1 := (i 0).isLt; omega
    | ⟨1, _⟩ => rfl
    | ⟨2, _⟩ => rfl
  rw [hi, xblk_apply]
  exact h _

/-- The sequence block `t` holds is sequence `t` of the argument. -/
theorem seqOfBlock_xblk (c : Dev nD) (t : Fin cfg0.N) : seqOfBlock (xblk m c t) = seqOf (xarr m c) (bOf t) := by
  funext q e
  show (xblk m c t (ix3 0 q e)).toReal = (xarr m c (ix3 (bOf t) q e)).toReal
  rw [xblk_apply]

/-- What the body leaves at grid point `t`, entry `d`: the output array's function at `(t, 0, d)`. -/
theorem bodyVal_at (c : Dev nD) (h : AllReal (xarr m c)) (t : Fin cfg0.N) (d : Fin 512) :
    bodyVal (F := Ideal) (xblk m c t) (ix3 0 0 d) = Gk (xarr m c) (ix3 (bOf t) 0 d) := by
  rw [bodyVal_closed (xblk m c t) (xblk_real m c h t) d, seqOfBlock_xblk]
  rfl

/-- WHAT POINT `t` WRITES BACK is block `t` of the output array's function. -/
theorem flushed_eq (c : Dev nD) (h : AllReal (xarr m c)) (t : Fin cfg0.N) :
    (dats m 0 c).flushed 1 t = ((cfg0.win 1).blk t).view.read (Elt Ideal) (Gk (xarr m c)) := by
  show (cfg0.win 1).cut (grid0.coords t) ((dats m 0 c).after 1 t) = _
  rw [after0_1, outsAt0_eq]
  obtain ⟨-, -, -, e0, e1, e2⟩ := idx_facts t
  funext y
  have y0 : (y 0).val < 1 := (y 0).isLt
  have y1 : (y 1).val < 1 := (y 1).isLt
  have y2 : (y 2).val < 512 := (y 2).isLt
  show bodyVal (F := Ideal) (xblk m c t) ((cfg0.win 1).xinj (grid0.coords t) y) = Gk (xarr m c) (((cfg0.win 1).blk t).view.emb y)
  have hl : (cfg0.win 1).xinj (grid0.coords t) y = ix3 (0 : Fin 1) (0 : Fin 1) (⟨(y 2).val, y2⟩ : Fin 512) := by
    funext a
    apply Fin.ext
    match a with
    | ⟨0, _⟩ => show (y 0).val = 0; omega
    | ⟨1, _⟩ => show (y 1).val = 0; omega
    | ⟨2, _⟩ => rfl
  have hr : ((cfg0.win 1).blk t).view.emb y = ix3 (bOf t) (0 : Fin 1) (⟨(y 2).val, y2⟩ : Fin 512) := by
    funext a
    apply Fin.ext
    match a with
    | ⟨0, _⟩ => show win0_1.index t (0 : Fin 3) * 1 + 1 * (y 0).val = t.val; omega
    | ⟨1, _⟩ => show win0_1.index t (1 : Fin 3) * 1 + 1 * (y 1).val = 0; omega
    | ⟨2, _⟩ => show win0_1.index t (2 : Fin 3) * 512 + 1 * (y 2).val = (y 2).val; omega
  rw [hl, hr]
  exact bodyVal_at m c h t _

/-- An index of the output array is in point `t`'s block iff each coordinate is in the block's range on its axis. -/
theorem mem_blk (t : Fin cfg0.N) (i : S8x1x512.Idx) :
    i ∈ ((cfg0.win 1).blk t).view.set ↔ ∀ a : Fin 3, win0_1.index t a * S1x1x512.size a ≤ (i a).val
      ∧ (i a).val < win0_1.index t a * S1x1x512.size a + S1x1x512.size a := by
  show i ∈ ((View.whole main_v0).slice (win0_1.rect t)).set ↔ _
  rw [View.set_slice_whole, Rect.mem_set_unit]
  exact Iff.rfl

/-- The eight blocks tile the output array: index `(b, 0, d)` lies in the block of point `b`. -/
theorem cover (i : S8x1x512.Idx) :
    ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 512 := (i 2).isLt
  refine ⟨⟨(i 0).val, lt_of_lt_of_eq hi0 N_0.symm⟩, flush0_1 _, ?_⟩
  rw [mem_blk]
  obtain ⟨-, -, -, e0, e1, e2⟩ := idx_facts ⟨(i 0).val, lt_of_lt_of_eq hi0 N_0.symm⟩
  have e0' : win0_1.index ⟨(i 0).val, lt_of_lt_of_eq hi0 N_0.symm⟩ (0 : Fin 3) = (i 0).val := e0
  intro a
  match a with
  | ⟨0, _⟩ =>
    show win0_1.index ⟨(i 0).val, _⟩ (0 : Fin 3) * 1 ≤ (i 0).val ∧ (i 0).val < win0_1.index ⟨(i 0).val, _⟩ (0 : Fin 3) * 1 + 1
    omega
  | ⟨1, _⟩ =>
    show win0_1.index ⟨(i 0).val, _⟩ (1 : Fin 3) * 1 ≤ (i 1).val ∧ (i 1).val < win0_1.index ⟨(i 0).val, _⟩ (1 : Fin 3) * 1 + 1
    omega
  | ⟨2, _⟩ =>
    show win0_1.index ⟨(i 0).val, _⟩ (2 : Fin 3) * 512 ≤ (i 2).val ∧ (i 2).val < win0_1.index ⟨(i 0).val, _⟩ (2 : Fin 3) * 512 + 512
    omega

/-- THE KERNEL'S OUTPUT ARRAY after the run is its function of the argument. -/
theorem final (c : Dev nD) (h : AllReal (xarr m c)) : (dats m 0 c).arrAt 1 cfg0.N = Gk (xarr m c) :=
  (dats m 0 c).arrAt_eq_of_cover 1 (Gk (xarr m c)) (fun t _ => flushed_eq m c h t) cover

/-- The closing reshape drops the unit axis: the result array is `G` of the argument. -/
theorem tail_v1 (c : Dev nD) (h : AllReal (xarr m c)) :
    Pipeline.afterTail₀ cfgs (dats m) 0 (V0 m) [hostOps1] c main_v1 = G (xarr m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.devRef .tc main_v0) = Gk (xarr m c) :=
    (Pipeline.withArrays_arr spec0 launch0.win.arr_inj c _ _ 1).trans (final m c h)
  rw [hw]
  funext j
  show shapeCast S8x512 (Gk (xarr m c)) shapeCasts_S8x1x512_S8x512 j = _
  have j0 : (j 0).val < 8 := (j 0).isLt
  have j1 : (j 1).val < 512 := (j 1).isLt
  refine (shapeCast_apply (Gk (xarr m c)) shapeCasts_S8x1x512_S8x512 j
    (ix3 (⟨(j 0).val, j0⟩ : Fin 8) (0 : Fin 1) (⟨(j 1).val, j1⟩ : Fin 512)) ?_).trans ?_
  · rw [Shape.rowMajor_val_two, Shape.rowMajor_val_three]
    show ((j 0).val * 1 + 0) * 512 + (j 1).val = (j 0).val * 512 + (j 1).val
    omega
  · rfl

end

/-- The idealized kernel's run with its result named: from a memory whose argument array holds real entries, every
    weakly fair execution ends with the result array at `G` of the argument and the argument unchanged. -/
theorem kernel_run (m : (ℓ : Loc nD τ sig) → Buf (Elt Ideal) ℓ) (ρ : Dev nD → PrngReg)
    (hfin : ∀ c : Dev nD, AllReal (S := SX) (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v1) = G (m ((c.tc : Thread nD τ).loc main_arg0))
      ∧ r.2.mem ((c.tc : Thread nD τ).loc main_arg0) = m ((c.tc : Thread nD τ).loc main_arg0)) := by
  have hreal : ∀ c : Dev nD, AllReal (xarr m c) := fun c => by rw [xarr_eq]; exact hfin c
  refine (θ_run defs _ _).mono (fun r h c => ⟨?_, ?_⟩) (run_main m ρ)
  · have hv := (h c).2 main_v1 (Pipeline.mem_restRefs_of main_v1 rfl (by decide))
    rw [hv, tail_v1 m c (hreal c), xarr_eq]
  · exact ((h c).1 0).trans (((dats m 0 c).arrAt_in 0 rfl _).trans ((A_eq m c 0).trans (V_main_arg0 m c)))

end Cert.KernelIdeal.Blocks

end
-- ==== Proof.lean ====
/-
  Self-attention with the sequence as queries, keys and values, averaged over the queries.
  For each of the 8 sequences `x : [2048, 512]` both programs compute, at feature `d`,

      (1 / 2048) · ∑_q  ( ∑_k exp(⟨x_q, x_k⟩) · x_{k,d} ) / ( ∑_k exp(⟨x_q, x_k⟩) ).

  The reference forms the 2048 × 2048 score matrix, subtracts each row's maximum, exponentiates, normalises,
  multiplies by `x` and takes the mean.  The kernel handles one sequence per grid point and never forms a score
  row whole: it sweeps the keys in four tiles of 512 and keeps per query a running maximum, denominator and
  numerator, rescaling the two sums by `exp (old maximum − new maximum)` at each tile (`Spec.lean`'s `rowStep`);
  it divides at the end, sums over the queries and multiplies by `2⁻¹¹`, which is the reference's division by 2048
  exactly.  On the reals the two agree because the softmax does not depend on the shift and a common positive
  factor of numerator and denominator cancels; this needs the inputs finite, which the precondition says
  (`Finite.lean`).  The casts to bf16 are the identity on the extended reals, and the kernel's matrix products
  into a zero accumulator are plain sums of products.

  The modules: `Spec` (the mathematics), `RowMath` (the online softmax on one row), `PayIdx` (the body's
  arithmetic read at an index), `BodyRun` (what the body's stores leave, as a four-fold step), `BodyMath` (that
  it is the mean context), `Blocks` (the eight blocks tile the result; the closing reshape), `RefSide` (the
  reference's stages composed), `Finite` (the precondition read).
-/
import proofs.«430922_j21337397526644_3_alg».proof.Defs
import proofs.«430922_j21337397526644_3_alg».proof.Proof.Gen.Kernel
import proofs.«430922_j21337397526644_3_alg».proof.Proof.Gen.Kernel.Frame
import proofs.«430922_j21337397526644_3_alg».proof.Proof.Gen.KernelIdeal
import proofs.«430922_j21337397526644_3_alg».proof.Proof.Gen.KernelIdeal.Frame
import proofs.«430922_j21337397526644_3_alg».proof.Proof.Gen.ReferenceIdeal
import proofs.«430922_j21337397526644_3_alg».proof.Proof.Gen.ReferenceIdeal.Run
import proofs.«430922_j21337397526644_3_alg».proof.Proof.Gen.ReferenceIdeal.Read
import proofs.«430922_j21337397526644_3_alg».proof.Proof.Gen.Pre_finite_inputs
import proofs.«430922_j21337397526644_3_alg».proof.Proof.Spec
import proofs.«430922_j21337397526644_3_alg».proof.Proof.Finite
import proofs.«430922_j21337397526644_3_alg».proof.Proof.RefSide
import proofs.«430922_j21337397526644_3_alg».proof.Proof.Blocks
import Idealize.ShloMosaic.Adequacy
import Idealize.ShloMosaic.Init

noncomputable section

namespace Cert.Proof

open Idealize.ShloMosaic Idealize.SL.Sem

/-- The word-level kernel runs and leaves its argument as it was. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the argument, with every entry real, both programs end with the mean context
    `G` of the argument in their results. -/
theorem algebraic : Cert.algebraic_KernelIdeal_ReferenceIdeal := by
  intro m ρ m' ρ' hpre hagree
  have hfin := fun c => Cert.AttnMean.allReal_of_pre m hpre c
  refine ⟨_, Cert.KernelIdeal.Blocks.kernel_run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  exact Cert.ReferenceIdeal.RefValue.ref_is_G _ (hfin c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
